-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x64 : Shape := ⟨2, ![262144, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S262144x64 : S_.BroadcastsInDim S262144x64 (![] : Fin 0 → Fin S262144x64.rank)
  reducesTo_S262144x64_S_d0_1 : S262144x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S64 .f32) (main_arg5 : FVec F S64x1 .f32) (main_arg6 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg5
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S262144x64 .f32) (main_arg1 : FVec F S64x64 .f32) (main_arg2 : FVec F S64 .f32) (main_arg3 : FVec F S64x64 .f32) (main_arg4 : FVec F S64 .f32) (main_arg5 : FVec F S64x1 .f32) (main_arg6 : FVec F S1 .f32) : IVec S_ 1 :=
  let main_v0 : FVec F S262144x64 .f32 := Host.absf main_arg0
  let main_cst : FVec F S_ .f32 := constant S_ .f32 0x7F800000#32
  let main_v1 : FVec F S262144x64 .f32 := broadcastInDim S262144x64 ![] bcast_S_S262144x64 main_cst
  let main_v2 : IVec S262144x64 1 := cmpf .olt main_v0 main_v1
  let main_c : IVec S_ 1 := constantI S_ 1 1#1
  let main_v3 : IVec S_ 1 := (fun x v => Host.reduce IntOp.andi x v reducesTo_S262144x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_v13 main_v16
-- ==== Kernel.lean ====
abbrev S262144x64 : Shape := ⟨2, ![262144, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S32x64 : Shape := ⟨2, ![32, 64]⟩
abbrev S64x32 : Shape := ⟨2, ![64, 32]⟩
abbrev S1x64 : Shape := ⟨2, ![1, 64]⟩
abbrev S262144x32 : Shape := ⟨2, ![262144, 32]⟩
abbrev S4096x64 : Shape := ⟨2, ![4096, 64]⟩
abbrev S4096x32 : Shape := ⟨2, ![4096, 32]⟩

abbrev nBuf : Space → Nat
  | .hbm => 18
  | .vmem => 11
  | .smem => 0
  | _ => 0

abbrev bufTy : (tb : Table) → Fin (tcTables nBuf tb) → BufTy
  | .hbm, ⟨0, _⟩ => ⟨S262144x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S64x64, .bf16⟩
  | .hbm, ⟨8, _⟩ => ⟨S64x64, .bf16⟩
  | .hbm, ⟨9, _⟩ => ⟨S64x64, .f32⟩
  | .hbm, ⟨10, _⟩ => ⟨S64x64, .bf16⟩
  | .hbm, ⟨11, _⟩ => ⟨S32x64, .f32⟩
  | .hbm, ⟨12, _⟩ => ⟨S64x32, .f32⟩
  | .hbm, ⟨13, _⟩ => ⟨S64x32, .bf16⟩
  | .hbm, ⟨14, _⟩ => ⟨S1x64, .f32⟩
  | .hbm, ⟨15, _⟩ => ⟨S1x64, .f32⟩
  | .hbm, ⟨16, _⟩ => ⟨S1x64, .f32⟩
  | .hbm, ⟨17, _⟩ => ⟨S262144x32, .f32⟩
  | .local _ .vmem, ⟨0, _⟩ => ⟨S4096x64, .f32⟩
  | .local _ .vmem, ⟨1, _⟩ => ⟨S4096x64, .f32⟩
  | .local _ .vmem, ⟨2, _⟩ => ⟨S64x64, .bf16⟩
  | .local _ .vmem, ⟨3, _⟩ => ⟨S64x64, .bf16⟩
  | .local _ .vmem, ⟨4, _⟩ => ⟨S64x64, .bf16⟩
  | .local _ .vmem, ⟨5, _⟩ => ⟨S64x32, .bf16⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S4096x32, .f32⟩
  | .local _ .vmem, ⟨10, _⟩ => ⟨S4096x32, .f32⟩
  | _, _ => ⟨S262144x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x32 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4096x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bitsLt_bf16_f32 : FTy.bits .bf16 < FTy.bits .f32
  transposes_S64x64_S64x64_1_0 : S64x64.Transposes [1, 0] S64x64
  slices_S64x64_S32x64_0_0 : S64x64.Slices ![0, 0] S32x64
  transposes_S32x64_S64x32_1_0 : S32x64.Transposes [1, 0] S64x32
  shapeCasts_S64_S1x64 : S64.ShapeCasts S1x64
  shapeCasts_S64x1_S1x64 : S64x1.ShapeCasts S1x64
  inb_S4096x64_S4096x64_0_0 : ∀ a, (![0, 0] : Fin 2 → Nat) a + S4096x64.size a ≤ S4096x64.size a
  h_S4096x64 : 0 < S4096x64.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  natLt_1_32 : 1 < 32
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S4096x32_S4096x32_0_0 : ∀ a, (![0, 0] : Fin 2 → Nat) a + S4096x32.size a ≤ S4096x32.size a
  h_S4096x32 : 0 < S4096x32.numel
  dot_S4096x64_S64x64_S4096x64_1_0_0_1_n_n_wf : DotDims.WF S4096x64 S64x64 S4096x64 [1] [0] [0] [1] [] []
  dot_S4096x64_S64x32_S4096x32_1_0_0_1_n_n_wf : DotDims.WF S4096x64 S64x32 S4096x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S262144x64.size a
  hwx0_0 : ∀ i : grid0.Coords, EltTy.bits .f32 = 32 ∨ (Rect.block (s := S262144x64) S4096x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .bf16 = 32 ∨ (Rect.block (s := S64x64) S64x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .bf16 = 32 ∨ (Rect.block (s := S64x64) S64x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x32.size a ≤ S64x32.size a
  hwx0_4 : ∀ i : grid0.Coords, EltTy.bits .bf16 = 32 ∨ (Rect.block (s := S64x32) S64x32.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4096x32.size a ≤ S262144x32.size a
  hwx0_8 : ∀ i : grid0.Coords, EltTy.bits .f32 = 32 ∨ (Rect.block (s := S262144x32) S4096x32.size (cc0_transform_8 i) (hinb0_8 i)).WholeWords (EltTy.packing .f32)

variable [Facts₀]

def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x64_S64x32_S4096x32_1_0_0_1_n_n : DotDims S4096x64 S64x32 S4096x32 where
  lhsContracting := [1]
  rhsContracting := [0]
  lhsNonContracting := [0]
  rhsNonContracting := [1]
  lhsBatch := []
  rhsBatch := []
  wf := dot_S4096x64_S64x32_S4096x32_1_0_0_1_n_n_wf

abbrev win0_0 : Pipeline.Window sig grid0 :=
  Pipeline.Window.ofSpec (Memref.whole main_arg0) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S64x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S4096x32.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S262144x64 : Shape := ⟨2, ![262144, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S262144x32 : Shape := ⟨2, ![262144, 32]⟩
abbrev S_ : Shape := ⟨0, ![]⟩
abbrev S1x64 : Shape := ⟨2, ![1, 64]⟩
abbrev S262144x1 : Shape := ⟨2, ![262144, 1]⟩
abbrev S1x1 : Shape := ⟨2, ![1, 1]⟩

abbrev nBuf : Space → Nat
  | .hbm => 118
  | .vmem => 0
  | .smem => 0
  | _ => 0

abbrev bufTy : (tb : Table) → Fin (tcTables nBuf tb) → BufTy
  | .hbm, ⟨0, _⟩ => ⟨S262144x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S262144x32, .f32⟩
  | .hbm, ⟨8, _⟩ => ⟨S262144x32, .f32⟩
  | .hbm, ⟨9, _⟩ => ⟨S262144x64, .f32⟩
  | .hbm, ⟨10, _⟩ => ⟨S_, .f32⟩
  | .hbm, ⟨11, _⟩ => ⟨S262144x32, .f32⟩
  | .hbm, ⟨12, _⟩ => ⟨S262144x64, .f32⟩
  | .hbm, ⟨13, _⟩ => ⟨S1x64, .f32⟩
  | .hbm, ⟨14, _⟩ => ⟨S262144x64, .f32⟩
  | .hbm, ⟨15, _⟩ => ⟨S262144x64, .f32⟩
  | .hbm, ⟨16, _⟩ => ⟨S_, .f32⟩
  | .hbm, ⟨17, _⟩ => ⟨S262144x64, .f32⟩
  | .hbm, ⟨18, _⟩ => ⟨S262144x64, .f32⟩
  | .hbm, ⟨19, _⟩ => ⟨S_, .f32⟩
  | .hbm, ⟨20, _⟩ => ⟨S262144x64, .f32⟩
  | .hbm, ⟨21, _⟩ => ⟨S262144x64, .i1⟩
  | .hbm, ⟨22, _⟩ => ⟨S_, .f32⟩
  | .hbm, ⟨23, _⟩ => ⟨S262144x64, .f32⟩
  | .hbm, ⟨24, _⟩ => ⟨S262144x64, .f32⟩
  | .hbm, ⟨25, _⟩ => ⟨S1x64, .f32⟩
  | .hbm, ⟨26, _⟩ => ⟨S262144x64, .f32⟩
  | .hbm, ⟨27, _⟩ => ⟨S262144x64, .f32⟩
  | .hbm, ⟨28, _⟩ => ⟨S_, .f32⟩
  | .hbm, ⟨29, _⟩ => ⟨S262144x64, .f32⟩
  | .hbm, ⟨30, _⟩ => ⟨S262144x64, .f32⟩
  | .hbm, ⟨31, _⟩ => ⟨S_, .f32⟩
  | .hbm, ⟨32, _⟩ => ⟨S262144x64, .f32⟩
  | .hbm, ⟨33, _⟩ => ⟨S262144x64, .i1⟩
  | .hbm, ⟨34, _⟩ => ⟨S_, .f32⟩
  | .hbm, ⟨35, _⟩ => ⟨S262144x64, .f32⟩
  | .hbm, ⟨36, _⟩ => ⟨S262144x1, .f32⟩
  | .hbm, ⟨37, _⟩ => ⟨S1x1, .f32⟩
  | .hbm, ⟨38, _⟩ => ⟨S262144x1, .f32⟩
  | .hbm, ⟨39, _⟩ => ⟨S262144x1, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S262144x1, .f32⟩
  | .hbm, ⟨44, _⟩ => ⟨S262144x64, .f32⟩
  | .hbm, ⟨45, _⟩ => ⟨S_, .f32⟩
  | .hbm, ⟨46, _⟩ => ⟨S262144x64, .f32⟩
  | .hbm, ⟨47, _⟩ => ⟨S262144x64, .f32⟩
  | .hbm, ⟨48, _⟩ => ⟨S262144x64, .f32⟩
  | .hbm, ⟨49, _⟩ => ⟨S_, .f32⟩
  | .hbm, ⟨50, _⟩ => ⟨S262144x64, .f32⟩
  | .hbm, ⟨51, _⟩ => ⟨S262144x64, .f32⟩
  | .hbm, ⟨52, _⟩ => ⟨S262144x64, .f32⟩
  | .hbm, ⟨53, _⟩ => ⟨S262144x32, .f32⟩
  | .hbm, ⟨54, _⟩ => ⟨S262144x32, .f32⟩
  | .hbm, ⟨55, _⟩ => ⟨S262144x64, .f32⟩
  | .hbm, ⟨56, _⟩ => ⟨S_, .f32⟩
  | .hbm, ⟨57, _⟩ => ⟨S262144x32, .f32⟩
  | .hbm, ⟨58, _⟩ => ⟨S_, .f32⟩
  | .hbm, ⟨59, _⟩ => ⟨S262144x32, .f32⟩
  | .hbm, ⟨60, _⟩ => ⟨S262144x64, .f32⟩
  | .hbm, ⟨61, _⟩ => ⟨S1x64, .f32⟩
  | .hbm, ⟨62, _⟩ => ⟨S262144x64, .f32⟩
  | .hbm, ⟨63, _⟩ => ⟨S262144x64, .f32⟩
  | .hbm, ⟨64, _⟩ => ⟨S_, .f32⟩
  | .hbm, ⟨65, _⟩ => ⟨S262144x64, .f32⟩
  | .hbm, ⟨66, _⟩ => ⟨S262144x64, .f32⟩
  | .hbm, ⟨67, _⟩ => ⟨S_, .f32⟩
  | .hbm, ⟨68, _⟩ => ⟨S262144x64, .f32⟩
  | .hbm, ⟨69, _⟩ => ⟨S262144x64, .i1⟩
  | .hbm, ⟨70, _⟩ => ⟨S_, .f32⟩
  | .hbm, ⟨71, _⟩ => ⟨S262144x64, .f32⟩
  | .hbm, ⟨72, _⟩ => ⟨S_, .f32⟩
  | .hbm, ⟨73, _⟩ => ⟨S262144x64, .f32⟩
  | .hbm, ⟨74, _⟩ => ⟨S262144x64, .i1⟩
  | .hbm, ⟨75, _⟩ => ⟨S_, .f32⟩
  | .hbm, ⟨76, _⟩ => ⟨S262144x64, .f32⟩
  | .hbm, ⟨77, _⟩ => ⟨S262144x64, .f32⟩
  | .hbm, ⟨78, _⟩ => ⟨S1x64, .f32⟩
  | .hbm, ⟨79, _⟩ => ⟨S262144x64, .f32⟩
  | .hbm, ⟨80, _⟩ => ⟨S262144x64, .f32⟩
  | .hbm, ⟨81, _⟩ => ⟨S_, .f32⟩
  | .hbm, ⟨82, _⟩ => ⟨S262144x64, .f32⟩
  | .hbm, ⟨83, _⟩ => ⟨S262144x64, .f32⟩
  | .hbm, ⟨84, _⟩ => ⟨S_, .f32⟩
  | .hbm, ⟨85, _⟩ => ⟨S262144x64, .f32⟩
  | .hbm, ⟨86, _⟩ => ⟨S262144x64, .i1⟩
  | .hbm, ⟨87, _⟩ => ⟨S_, .f32⟩
  | .hbm, ⟨88, _⟩ => ⟨S262144x64, .f32⟩
  | .hbm, ⟨89, _⟩ => ⟨S_, .f32⟩
  | .hbm, ⟨90, _⟩ => ⟨S262144x64, .f32⟩
  | .hbm, ⟨91, _⟩ => ⟨S262144x64, .i1⟩
  | .hbm, ⟨92, _⟩ => ⟨S_, .f32⟩
  | .hbm, ⟨93, _⟩ => ⟨S262144x64, .f32⟩
  | .hbm, ⟨94, _⟩ => ⟨S262144x1, .f32⟩
  | .hbm, ⟨95, _⟩ => ⟨S1x1, .f32⟩
  | .hbm, ⟨96, _⟩ => ⟨S262144x1, .f32⟩
  | .hbm, ⟨97, _⟩ => ⟨S262144x1, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S262144x1, .f32⟩
  | .hbm, ⟨102, _⟩ => ⟨S262144x64, .f32⟩
  | .hbm, ⟨103, _⟩ => ⟨S_, .f32⟩
  | .hbm, ⟨104, _⟩ => ⟨S262144x64, .f32⟩
  | .hbm, ⟨105, _⟩ => ⟨S262144x64, .f32⟩
  | .hbm, ⟨106, _⟩ => ⟨S262144x64, .f32⟩
  | .hbm, ⟨107, _⟩ => ⟨S_, .f32⟩
  | .hbm, ⟨108, _⟩ => ⟨S262144x64, .f32⟩
  | .hbm, ⟨109, _⟩ => ⟨S262144x64, .f32⟩
  | .hbm, ⟨110, _⟩ => ⟨S262144x64, .f32⟩
  | .hbm, ⟨111, _⟩ => ⟨S262144x32, .f32⟩
  | .hbm, ⟨112, _⟩ => ⟨S262144x32, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S262144x32, .f32⟩
  | .hbm, ⟨117, _⟩ => ⟨S262144x32, .f32⟩
  | _, _ => ⟨S262144x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call0_cst : Ref sig .tc := ⟨.hbm, 16, rfl⟩
abbrev main_call0_v0 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call1_cst : Ref sig .tc := ⟨.hbm, 28, rfl⟩
abbrev main_call1_v0 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_7 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_cst_9 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_call2_cst : Ref sig .tc := ⟨.hbm, 64, rfl⟩
abbrev main_call2_v0 : Ref sig .tc := ⟨.hbm, 65, rfl⟩
abbrev main_v42 : Ref sig .tc := ⟨.hbm, 66, rfl⟩
abbrev main_cst_10 : Ref sig .tc := ⟨.hbm, 67, rfl⟩
abbrev main_v43 : Ref sig .tc := ⟨.hbm, 68, rfl⟩
abbrev main_v44 : Ref sig .tc := ⟨.hbm, 69, rfl⟩
abbrev main_cst_11 : Ref sig .tc := ⟨.hbm, 70, rfl⟩
abbrev main_v45 : Ref sig .tc := ⟨.hbm, 71, rfl⟩
abbrev main_cst_12 : Ref sig .tc := ⟨.hbm, 72, rfl⟩
abbrev main_v46 : Ref sig .tc := ⟨.hbm, 73, rfl⟩
abbrev main_v47 : Ref sig .tc := ⟨.hbm, 74, rfl⟩
abbrev main_cst_13 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_call3_cst : Ref sig .tc := ⟨.hbm, 81, rfl⟩
abbrev main_call3_v0 : Ref sig .tc := ⟨.hbm, 82, rfl⟩
abbrev main_v53 : Ref sig .tc := ⟨.hbm, 83, rfl⟩
abbrev main_cst_14 : Ref sig .tc := ⟨.hbm, 84, rfl⟩
abbrev main_v54 : Ref sig .tc := ⟨.hbm, 85, rfl⟩
abbrev main_v55 : Ref sig .tc := ⟨.hbm, 86, rfl⟩
abbrev main_cst_15 : Ref sig .tc := ⟨.hbm, 87, rfl⟩
abbrev main_v56 : Ref sig .tc := ⟨.hbm, 88, rfl⟩
abbrev main_cst_16 : Ref sig .tc := ⟨.hbm, 89, rfl⟩
abbrev main_v57 : Ref sig .tc := ⟨.hbm, 90, rfl⟩
abbrev main_v58 : Ref sig .tc := ⟨.hbm, 91, rfl⟩
abbrev main_cst_17 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_18 : Ref sig .tc := ⟨.hbm, 98, rfl⟩
abbrev main_v64 : Ref sig .tc := ⟨.hbm, 99, rfl⟩
abbrev main_cst_19 : Ref sig .tc := ⟨.hbm, 100, rfl⟩
abbrev main_v65 : Ref sig .tc := ⟨.hbm, 101, rfl⟩
abbrev main_v66 : Ref sig .tc := ⟨.hbm, 102, rfl⟩
abbrev main_cst_20 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_cst_21 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_cst_22 : Ref sig .tc := ⟨.hbm, 113, rfl⟩
abbrev main_v75 : Ref sig .tc := ⟨.hbm, 114, rfl⟩
abbrev main_cst_23 : Ref sig .tc := ⟨.hbm, 115, rfl⟩
abbrev main_v76 : Ref sig .tc := ⟨.hbm, 116, rfl⟩
abbrev main_v77 : Ref sig .tc := ⟨.hbm, 117, rfl⟩

abbrev nD : Nat := 1
abbrev τ : Topo := Topo.v7x

variable {F : FTy → Type} [FloatOps F]

class Facts₀ : Prop where
  slices_S262144x64_S262144x32_0_0 : S262144x64.Slices ![0, 0] S262144x32
  slices_S262144x64_S262144x32_0_32 : S262144x64.Slices ![0, 32] S262144x32
  concatenates_S262144x32_S262144x32_S262144x64_d1 : Shape.Concatenates [S262144x32, S262144x32] S262144x64 1
  bcast_S_S262144x32 : S_.BroadcastsInDim S262144x32 (![] : Fin 0 → Fin S262144x32.rank)
  bcast_S64_S1x64_1 : S64.BroadcastsInDim S1x64 (![1] : Fin 1 → Fin S1x64.rank)
  bcast_S1x64_S262144x64_0_1 : S1x64.BroadcastsInDim S262144x64 (![0, 1] : Fin 2 → Fin S262144x64.rank)
  bcast_S_S262144x64 : S_.BroadcastsInDim S262144x64 (![] : Fin 0 → Fin S262144x64.rank)
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  reducesTo_S262144x1_S_d0_1 : S262144x1.ReducesTo [0, 1] S_
  h_S_ : 0 < S_.numel
  bcast_S_S262144x1 : S_.BroadcastsInDim S262144x1 (![] : Fin 0 → Fin S262144x1.rank)
  reducesTo_S262144x32_S_d0_1 : S262144x32.ReducesTo [0, 1] S_
  dot_S262144x64_S64x64_S262144x64_1_0_0_1_n_n_wf : DotDims.WF S262144x64 S64x64 S262144x64 [1] [0] [0] [1] [] []
  dot_S262144x64_S64x1_S262144x1_1_0_0_1_n_n_wf : DotDims.WF S262144x64 S64x1 S262144x1 [1] [0] [0] [1] [] []
  dot_S262144x1_S64x1_S262144x64_1_1_0_0_n_n_wf : DotDims.WF S262144x1 S64x1 S262144x64 [1] [1] [0] [0] [] []
  dot_S262144x64_S64x64_S262144x64_1_1_0_0_n_n_wf : DotDims.WF S262144x64 S64x64 S262144x64 [1] [1] [0] [0] [] []

variable [Facts₀]

def dot_S262144x64_S64x64_S262144x64_1_0_0_1_n_n : DotDims S262144x64 S64x64 S262144x64 where
  lhsContracting := [1]
  rhsContracting := [0]
  lhsNonContracting := [0]
  rhsNonContracting := [1]
  lhsBatch := []
  rhsBatch := []
  wf := dot_S262144x64_S64x64_S262144x64_1_0_0_1_n_n_wf
def dot_S262144x64_S64x1_S262144x1_1_0_0_1_n_n : DotDims S262144x64 S64x1 S262144x1 where
  lhsContracting := [1]
  rhsContracting := [0]
  lhsNonContracting := [0]
  rhsNonContracting := [1]
  lhsBatch := []
  rhsBatch := []
  wf := dot_S262144x64_S64x1_S262144x1_1_0_0_1_n_n_wf
def dot_S262144x1_S64x1_S262144x64_1_1_0_0_n_n : DotDims S262144x1 S64x1 S262144x64 where
  lhsContracting := [1]
  rhsContracting := [1]
  lhsNonContracting := [0]
  rhsNonContracting := [0]
  lhsBatch := []
  rhsBatch := []
  wf := dot_S262144x1_S64x1_S262144x64_1_1_0_0_n_n_wf
def dot_S262144x64_S64x64_S262144x64_1_1_0_0_n_n : DotDims S262144x64 S64x64 S262144x64 where
  lhsContracting := [1]
  rhsContracting := [1]
  lhsNonContracting := [0]
  rhsNonContracting := [0]
  lhsBatch := []
  rhsBatch := []
  wf := dot_S262144x64_S64x64_S262144x64_1_1_0_0_n_n_wf

class Facts : Prop extends Facts₀ where

variable [Facts]
-- ==== Proof.RowResidual.lean ====
/-
  The Euler–Lagrange residual of a three-layer ReLU network, one sample at a time.

  The Lagrangian is `L(x) = relu(relu(x·W1 + b1)·W2 + b2)·W3 + b3` of a sample `x = [q; q̇]` of 64 numbers. It is
  piecewise linear in `x`, so its second derivatives vanish wherever they exist, and the residual
  `d/dt ∂L/∂q̇ − ∂L/∂q` is `0 − ∂L/∂q`. The gradient is one backward pass. With
      z₁ = x·W1 + b1,   h₁ = relu z₁,   z₂ = h₁·W2 + b2
  the adjoints are
      g₂ = [z₂ > 0] ⊙ W3ᵀ,   g₁ = [z₁ > 0] ⊙ (g₂·W2ᵀ),   ∂L/∂x = g₁·W1ᵀ,
  and `∂L/∂q` is the first 32 of the 64 entries of `∂L/∂x`.

  Everything is stated on the extended reals, where `1·t = t` and `0·t = 0` for EVERY `t`, the infinities
  included. So a ReLU derivative applied as a product with a 0/1 number and one applied as a choice between `t` and
  `0` are the same function of `(z, t)` with no finiteness assumed: `wherePos z t` below. Likewise `max z 0` and
  `z·[z > 0]` are both `wherePos z z`.

  The two transposed weight matrices enter `residual` as operands of their own (`B2`, `B1`): one program
  materialises the transposes, the other contracts over the second axis of the untransposed matrix, and both
  are instances of the same row function.
-/
import Idealize.ShloMosaic.PureOps.Ideal
import Idealize.ShloMosaic.PureOps.Ideal.Laws
import Idealize.ShloMosaic.Lib.ValueIdx

noncomputable section

namespace Cert.Lagrangian

open Idealize.ShloMosaic Idealize.ShloMosaic.ValueIdx

/-! ## A value kept where a pre-activation is positive -/

/-- `t` where `z` is positive, zero elsewhere: the ReLU's derivative at `z` applied to `t`. -/
def wherePos (z t : EReal) : EReal := if 0 < z then t else 0

/-- The number one where `z` is positive, zero elsewhere. -/
def posBit (z : EReal) : EReal := if 0 < z then 1 else 0

/-- The ReLU itself keeps `z` where `z` is positive. -/
theorem max_zero_eq_wherePos (z : EReal) : max z 0 = wherePos z z := by
  unfold wherePos
  split
  · next h => exact max_eq_left h.le
  · next h => exact max_eq_right (not_lt.mp h)

/-- Multiplying by the 0/1 number on the right keeps `z` where it is positive; `z·0 = 0` also at the infinities. -/
theorem mul_posBit (z : EReal) : z * posBit z = wherePos z z := by unfold posBit wherePos; split <;> simp

/-- Multiplying by the 0/1 number on the left keeps `t` where `z` is positive; `0·t = 0` also at the infinities. -/
theorem posBit_mul (z t : EReal) : posBit z * t = wherePos z t := by unfold posBit wherePos; split <;> simp

/-- The comparison `z > 0` on the extended reals, as the one-bit word both programs compute. -/
theorem cmpf_ogt_zero (z : EReal) :
    FloatOps.cmpf (F := Ideal) (φ := .f32) .ogt z (Ideal.ofBits .f32 0x00000000#32) = BitVec.ofBool (decide (0 < z)) := by
  rw [Ideal.cmpf_def, Ideal.ofBits_zero_f32]; rfl

/-- That bit widened to a 32-bit word and read as a signed integer is the 0/1 number. -/
theorem sitofp_extui_cmpf_ogt_zero (z : EReal) :
    (FloatOps.sitofp (F := Ideal) .f32
      ((FloatOps.cmpf (F := Ideal) (φ := .f32) .ogt z (Ideal.ofBits .f32 0x00000000#32)).setWidth 32) : EReal) = posBit z := by
  rw [cmpf_ogt_zero]
  unfold posBit
  by_cases h : 0 < z
  · simp [h]
    show (((1#32 : BitVec 32).toInt : ℝ) : EReal) = 1
    rw [show (1#32 : BitVec 32).toInt = 1 by decide]; norm_num
  · simp [h]
    show (((0#32 : BitVec 32).toInt : ℝ) : EReal) = 0
    rw [show (0#32 : BitVec 32).toInt = 0 by decide]; norm_num

/-- Choosing between `t` and the zero constant by that bit keeps `t` where `z` is positive. -/
theorem select_cmpf_ogt_zero (z t : EReal) :
    Scalar.select (FloatOps.cmpf (F := Ideal) (φ := .f32) .ogt z (Ideal.ofBits .f32 0x00000000#32)) t
      (Ideal.ofBits .f32 0x00000000#32) = wherePos z t := by
  rw [cmpf_ogt_zero, Ideal.ofBits_zero_f32]
  unfold wherePos
  by_cases h : 0 < z
  · simp [h]; exact select_one _ _
  · simp [h]; exact select_zero _ _

/-! ## One sample -/

section Row

variable (x : Fin 64 → EReal) (A1 : Fin 64 → Fin 64 → EReal) (c1 : Fin 64 → EReal)
  (A2 : Fin 64 → Fin 64 → EReal) (c2 : Fin 64 → EReal) (w : Fin 64 → EReal)
  (B2 : Fin 64 → Fin 64 → EReal) (B1 : Fin 64 → Fin 32 → EReal)

/-- The first layer's pre-activation `z₁ = x·A1 + c1`. -/
def layer1 (j : Fin 64) : EReal := (∑ k : Fin 64, x k * A1 k j) + c1 j

/-- The first hidden layer `h₁ = relu z₁`. -/
def act1 (j : Fin 64) : EReal := wherePos (layer1 x A1 c1 j) (layer1 x A1 c1 j)

/-- The second layer's pre-activation `z₂ = h₁·A2 + c2`. -/
def layer2 (j : Fin 64) : EReal := (∑ k : Fin 64, act1 x A1 c1 k * A2 k j) + c2 j

/-- The adjoint of `z₂`: the output weights where `z₂` is positive. -/
def adj2 (j : Fin 64) : EReal := wherePos (layer2 x A1 c1 A2 c2 j) (w j)

/-- The adjoint of `z₁`: `g₂·B2` where `z₁` is positive (`B2` is the second weight matrix transposed). -/
def adj1 (k : Fin 64) : EReal := wherePos (layer1 x A1 c1 k) (∑ j : Fin 64, adj2 x A1 c1 A2 c2 w j * B2 j k)

/-- The residual `0 − ∂L/∂q`: `g₁·B1`, with `B1` the first 32 rows of the first weight matrix, transposed. -/
def residual (d : Fin 32) : EReal := 0 - ∑ k : Fin 64, adj1 x A1 c1 A2 c2 w B2 k * B1 k d

end Row

/-! ## The whole batch -/

/-- The residual of every sample: row `r` of the result is `residual` of row `r` of `X`, the transposed operands
    read off `W2` and off the first 32 rows of `W1`. -/
def G (X : (⟨2, ![262144, 64]⟩ : Shape).Idx → EReal) (W1 : (⟨2, ![64, 64]⟩ : Shape).Idx → EReal)
    (b1 : (⟨1, ![64]⟩ : Shape).Idx → EReal) (W2 : (⟨2, ![64, 64]⟩ : Shape).Idx → EReal)
    (b2 : (⟨1, ![64]⟩ : Shape).Idx → EReal) (W3 : (⟨2, ![64, 1]⟩ : Shape).Idx → EReal) :
    (⟨2, ![262144, 32]⟩ : Shape).Idx → EReal := fun i =>
  residual (fun k => X (ix2 (i 0) k)) (fun k j => W1 (ix2 k j)) (fun j => b1 (ix1 j)) (fun k j => W2 (ix2 k j))
    (fun j => b2 (ix1 j)) (fun j => W3 (ix2 j (0 : Fin 1))) (fun j k => W2 (ix2 k j))
    (fun k d => W1 (ix2 (Fin.castLE (by decide : 32 ≤ 64) d) k)) (i 1)

end Cert.Lagrangian

end
-- ==== Proof.KernelRow.lean ====
/-
  What the kernel's body stores, read at one entry.

  The body loads a block of 4096 samples and the (small) weight arrays whole, runs the forward pass
  `z₁ = x·W1 + b1`, `h₁ = z₁·[z₁ > 0]`, `z₂ = h₁·W2 + b2`, then the backward pass with the two ReLU derivatives
  applied as products with the 0/1 numbers `[z₁ > 0]`, `[z₂ > 0]`, and stores `0 − g₁·W1qᵀ`. Three of its four matrix
  products share one set of dimension numbers ([4096,64]·[64,64]) and the last has another ([4096,64]·[64,32]);
  into a zero accumulator each is the plain sum over the contracted coordinate. Changes of float format are the
  identity on the extended reals. So the stored block at `(p, d)` is `residual` of row `p` of the sample block, with
  the transposed operands `B2`, `B1` the two blocks the caller transposed beforehand.
-/
import proofs.«107176_j52372831208004_1_alg».proof.Proof.Gen.KernelIdeal.Skeleton
import proofs.«107176_j52372831208004_1_alg».proof.Proof.RowResidual
import Idealize.ShloMosaic.Lib.Pipeline.Value
import Idealize.ShloMosaic.Lib.ValueLayout

noncomputable section

namespace Cert.Lagrangian.Body

open Idealize.ShloMosaic Idealize.ShloMosaic.ValueIdx
open Cert.KernelIdeal Cert.KernelIdeal.Gen Cert.Lagrangian

/-! ## The two matrix products at an entry -/

theorem sq_lhs0 (i : S4096x64.Idx) (q : dot_S4096x64_S64x64_S4096x64_1_0_0_1_n_n.contr.Idx) :
    (dot_S4096x64_S64x64_S4096x64_1_0_0_1_n_n.lhsIdx i q 0).val = (i 0).val := by
  unfold DotDims.lhsIdx
  rw [dif_neg (show ¬(0 : Fin S4096x64.rank) ∈ dot_S4096x64_S64x64_S4096x64_1_0_0_1_n_n.lhsBatch by decide),
    dif_pos (show (0 : Fin S4096x64.rank) ∈ dot_S4096x64_S64x64_S4096x64_1_0_0_1_n_n.lhsNonContracting by decide)]
  rfl
theorem sq_lhs1 (i : S4096x64.Idx) (q : dot_S4096x64_S64x64_S4096x64_1_0_0_1_n_n.contr.Idx) :
    (dot_S4096x64_S64x64_S4096x64_1_0_0_1_n_n.lhsIdx i q 1).val = (q ⟨0, by decide⟩).val :=
  dot_S4096x64_S64x64_S4096x64_1_0_0_1_n_n.lhsIdx_val_of_single rfl i q
theorem sq_rhs0 (i : S4096x64.Idx) (q : dot_S4096x64_S64x64_S4096x64_1_0_0_1_n_n.contr.Idx) :
    (dot_S4096x64_S64x64_S4096x64_1_0_0_1_n_n.rhsIdx i q 0).val = (q ⟨0, by decide⟩).val :=
  dot_S4096x64_S64x64_S4096x64_1_0_0_1_n_n.rhsIdx_val_of_single rfl i q
theorem sq_rhs1 (i : S4096x64.Idx) (q : dot_S4096x64_S64x64_S4096x64_1_0_0_1_n_n.contr.Idx) :
    (dot_S4096x64_S64x64_S4096x64_1_0_0_1_n_n.rhsIdx i q 1).val = (i 1).val := by
  unfold DotDims.rhsIdx
  rw [dif_neg (show ¬(1 : Fin S64x64.rank) ∈ dot_S4096x64_S64x64_S4096x64_1_0_0_1_n_n.rhsBatch by decide),
    dif_pos (show (1 : Fin S64x64.rank) ∈ dot_S4096x64_S64x64_S4096x64_1_0_0_1_n_n.rhsNonContracting by decide)]
  rfl

theorem nar_lhs0 (i : S4096x32.Idx) (q : dot_S4096x64_S64x32_S4096x32_1_0_0_1_n_n.contr.Idx) :
    (dot_S4096x64_S64x32_S4096x32_1_0_0_1_n_n.lhsIdx i q 0).val = (i 0).val := by
  unfold DotDims.lhsIdx
  rw [dif_neg (show ¬(0 : Fin S4096x64.rank) ∈ dot_S4096x64_S64x32_S4096x32_1_0_0_1_n_n.lhsBatch by decide),
    dif_pos (show (0 : Fin S4096x64.rank) ∈ dot_S4096x64_S64x32_S4096x32_1_0_0_1_n_n.lhsNonContracting by decide)]
  rfl
theorem nar_lhs1 (i : S4096x32.Idx) (q : dot_S4096x64_S64x32_S4096x32_1_0_0_1_n_n.contr.Idx) :
    (dot_S4096x64_S64x32_S4096x32_1_0_0_1_n_n.lhsIdx i q 1).val = (q ⟨0, by decide⟩).val :=
  dot_S4096x64_S64x32_S4096x32_1_0_0_1_n_n.lhsIdx_val_of_single rfl i q
theorem nar_rhs0 (i : S4096x32.Idx) (q : dot_S4096x64_S64x32_S4096x32_1_0_0_1_n_n.contr.Idx) :
    (dot_S4096x64_S64x32_S4096x32_1_0_0_1_n_n.rhsIdx i q 0).val = (q ⟨0, by decide⟩).val :=
  dot_S4096x64_S64x32_S4096x32_1_0_0_1_n_n.rhsIdx_val_of_single rfl i q
theorem nar_rhs1 (i : S4096x32.Idx) (q : dot_S4096x64_S64x32_S4096x32_1_0_0_1_n_n.contr.Idx) :
    (dot_S4096x64_S64x32_S4096x32_1_0_0_1_n_n.rhsIdx i q 1).val = (i 1).val := by
  unfold DotDims.rhsIdx
  rw [dif_neg (show ¬(1 : Fin S64x32.rank) ∈ dot_S4096x64_S64x32_S4096x32_1_0_0_1_n_n.rhsBatch by decide),
    dif_pos (show (1 : Fin S64x32.rank) ∈ dot_S4096x64_S64x32_S4096x32_1_0_0_1_n_n.rhsNonContracting by decide)]
  rfl

/-- A block of 4096 rows times a 64×64 matrix, into zero: entry `(p, j)` is the sum over `k` of `l[p,k]·r[k,j]`. -/
theorem sq_apply (l : FVec Ideal S4096x64 .bf16) (r : FVec Ideal S64x64 .bf16) (p : Fin 4096) (j : Fin 64) :
    matmul dot_S4096x64_S64x64_S4096x64_1_0_0_1_n_n none l r (constant S4096x64 .f32 0x00000000#32) (ix2 p j)
      = ∑ k : Fin 64, l (ix2 p k) * r (ix2 k j) := by
  simp only [matmul]
  rw [Ideal.matmul_constant_zero_apply, ← Equiv.sum_comp (contrEquiv1 dot_S4096x64_S64x64_S4096x64_1_0_0_1_n_n 64 rfl rfl).symm]
  refine Finset.sum_congr rfl fun k _ => ?_
  have hk := contrEquiv1_symm_val dot_S4096x64_S64x64_S4096x64_1_0_0_1_n_n 64 rfl rfl k
  have el : dot_S4096x64_S64x64_S4096x64_1_0_0_1_n_n.lhsIdx (ix2 p j) ((contrEquiv1 dot_S4096x64_S64x64_S4096x64_1_0_0_1_n_n 64 rfl rfl).symm k) = ix2 p k :=
    funext fun a => Fin.ext (by
      match a with
      | ⟨0, _⟩ => exact sq_lhs0 _ _
      | ⟨1, _⟩ => exact (sq_lhs1 _ _).trans hk)
  have er : dot_S4096x64_S64x64_S4096x64_1_0_0_1_n_n.rhsIdx (ix2 p j) ((contrEquiv1 dot_S4096x64_S64x64_S4096x64_1_0_0_1_n_n 64 rfl rfl).symm k) = ix2 k j :=
    funext fun a => Fin.ext (by
      match a with
      | ⟨0, _⟩ => exact (sq_rhs0 _ _).trans hk
      | ⟨1, _⟩ => exact sq_rhs1 _ _)
  rw [el, er]

/-- A block of 4096 rows times a 64×32 matrix, into zero: entry `(p, d)` is the sum over `k` of `l[p,k]·r[k,d]`. -/
theorem nar_apply (l : FVec Ideal S4096x64 .bf16) (r : FVec Ideal S64x32 .bf16) (p : Fin 4096) (j : Fin 32) :
    matmul dot_S4096x64_S64x32_S4096x32_1_0_0_1_n_n none l r (constant S4096x32 .f32 0x00000000#32) (ix2 p j)
      = ∑ k : Fin 64, l (ix2 p k) * r (ix2 k j) := by
  simp only [matmul]
  rw [Ideal.matmul_constant_zero_apply, ← Equiv.sum_comp (contrEquiv1 dot_S4096x64_S64x32_S4096x32_1_0_0_1_n_n 64 rfl rfl).symm]
  refine Finset.sum_congr rfl fun k _ => ?_
  have hk := contrEquiv1_symm_val dot_S4096x64_S64x32_S4096x32_1_0_0_1_n_n 64 rfl rfl k
  have el : dot_S4096x64_S64x32_S4096x32_1_0_0_1_n_n.lhsIdx (ix2 p j) ((contrEquiv1 dot_S4096x64_S64x32_S4096x32_1_0_0_1_n_n 64 rfl rfl).symm k) = ix2 p k :=
    funext fun a => Fin.ext (by
      match a with
      | ⟨0, _⟩ => exact nar_lhs0 _ _
      | ⟨1, _⟩ => exact (nar_lhs1 _ _).trans hk)
  have er : dot_S4096x64_S64x32_S4096x32_1_0_0_1_n_n.rhsIdx (ix2 p j) ((contrEquiv1 dot_S4096x64_S64x32_S4096x32_1_0_0_1_n_n 64 rfl rfl).symm k) = ix2 k j :=
    funext fun a => Fin.ext (by
      match a with
      | ⟨0, _⟩ => exact (nar_rhs0 _ _).trans hk
      | ⟨1, _⟩ => exact nar_rhs1 _ _)
  rw [el, er]

/-! ## The body's vectors, named -/

section Vectors

variable (x : Vec Ideal S4096x64 .f32) (w1 : Vec Ideal S64x64 .bf16) (b1 : Vec Ideal S1x64 .f32)
  (w2 : Vec Ideal S64x64 .bf16) (b2 : Vec Ideal S1x64 .f32) (w3 : Vec Ideal S1x64 .f32)
  (w2t : Vec Ideal S64x64 .bf16) (w1qt : Vec Ideal S64x32 .bf16)

/-- The zero every comparison is made against. -/
abbrev zeros : FVec Ideal S4096x64 .f32 := broadcast S4096x64 (Scalar.ofBits .f32 0x00000000#32)

/-- `z₁` on the block. -/
def z1 : FVec Ideal S4096x64 .f32 :=
  addf (matmul dot_S4096x64_S64x64_S4096x64_1_0_0_1_n_n none (truncf .bf16 x bitsLt_bf16_f32) (shapeCast S64x64 w1 shapeCasts_S64x64_S64x64 : FVec Ideal S64x64 .bf16)
      (constant S4096x64 .f32 0x00000000#32))
    (broadcastTo S4096x64 (shapeCast S1x64 b1 shapeCasts_S1x64_S1x64 : FVec Ideal S1x64 .f32) broadcasts_S1x64_S4096x64)

/-- `[z₁ > 0]` as a float. -/
def s1 : FVec Ideal S4096x64 .f32 := sitofp .f32 (extui 32 (cmpf .ogt (z1 x w1 b1) zeros) natLt_1_32)

/-- `z₂` on the block. -/
def z2 : FVec Ideal S4096x64 .f32 :=
  addf (matmul dot_S4096x64_S64x64_S4096x64_1_0_0_1_n_n none (truncf .bf16 (mulf (z1 x w1 b1) (s1 x w1 b1)) bitsLt_bf16_f32)
      (shapeCast S64x64 w2 shapeCasts_S64x64_S64x64 : FVec Ideal S64x64 .bf16) (constant S4096x64 .f32 0x00000000#32))
    (broadcastTo S4096x64 (shapeCast S1x64 b2 shapeCasts_S1x64_S1x64 : FVec Ideal S1x64 .f32) broadcasts_S1x64_S4096x64)

/-- `[z₂ > 0]` as a float. -/
def s2 : FVec Ideal S4096x64 .f32 := sitofp .f32 (extui 32 (cmpf .ogt (z2 x w1 b1 w2 b2) zeros) natLt_1_32)

/-- The adjoint of `z₁` on the block. -/
def g1 : FVec Ideal S4096x64 .f32 :=
  mulf (s1 x w1 b1)
    (matmul dot_S4096x64_S64x64_S4096x64_1_0_0_1_n_n none
      (truncf .bf16 (mulf (s2 x w1 b1 w2 b2) (broadcastTo S4096x64 (shapeCast S1x64 w3 shapeCasts_S1x64_S1x64 : FVec Ideal S1x64 .f32) broadcasts_S1x64_S4096x64))
        bitsLt_bf16_f32)
      (shapeCast S64x64 w2t shapeCasts_S64x64_S64x64 : FVec Ideal S64x64 .bf16) (constant S4096x64 .f32 0x00000000#32))

/-- The body's first payload is the adjoint of `z₁` (a change of format aside). -/
theorem pay2_eq : k0_pay2 x w1 b1 w2 b2 w3 w2t = truncf .bf16 (g1 x w1 b1 w2 b2 w3 w2t) bitsLt_bf16_f32 := rfl

/-! ## Each vector at an entry -/

/-- Row `p` of the sample block. -/
abbrev row (p : Fin 4096) : Fin 64 → EReal := fun k => x (ix2 p k)

theorem z1_apply (p : Fin 4096) (j : Fin 64) :
    z1 x w1 b1 (ix2 p j) = layer1 (row x p) (fun k j => w1 (ix2 k j)) (fun j => b1 (ix2 (0 : Fin 1) j)) j := by
  unfold z1 layer1
  rw [addf_apply, sq_apply, broadcastTo_1b_ab_apply, shapeCast_self, shapeCast_self]
  rfl

theorem s1_apply (p : Fin 4096) (j : Fin 64) :
    s1 x w1 b1 (ix2 p j) = posBit (layer1 (row x p) (fun k j => w1 (ix2 k j)) (fun j => b1 (ix2 (0 : Fin 1) j)) j) := by
  unfold s1
  rw [sitofp_apply, extui_apply, cmpf_apply, z1_apply]
  exact sitofp_extui_cmpf_ogt_zero _

theorem z2_apply (p : Fin 4096) (j : Fin 64) :
    z2 x w1 b1 w2 b2 (ix2 p j) = layer2 (row x p) (fun k j => w1 (ix2 k j)) (fun j => b1 (ix2 (0 : Fin 1) j))
      (fun k j => w2 (ix2 k j)) (fun j => b2 (ix2 (0 : Fin 1) j)) j := by
  unfold z2 layer2
  rw [addf_apply, sq_apply, broadcastTo_1b_ab_apply, shapeCast_self, shapeCast_self]
  refine congrArg (· + b2 (ix2 (0 : Fin 1) j)) (Finset.sum_congr rfl fun k _ => ?_)
  rw [truncf_apply, mulf_apply, z1_apply, s1_apply, mul_posBit]
  rfl

theorem s2_apply (p : Fin 4096) (j : Fin 64) :
    s2 x w1 b1 w2 b2 (ix2 p j) = posBit (layer2 (row x p) (fun k j => w1 (ix2 k j)) (fun j => b1 (ix2 (0 : Fin 1) j))
      (fun k j => w2 (ix2 k j)) (fun j => b2 (ix2 (0 : Fin 1) j)) j) := by
  unfold s2
  rw [sitofp_apply, extui_apply, cmpf_apply, z2_apply]
  exact sitofp_extui_cmpf_ogt_zero _

theorem g1_apply (p : Fin 4096) (k : Fin 64) :
    g1 x w1 b1 w2 b2 w3 w2t (ix2 p k) = adj1 (row x p) (fun k j => w1 (ix2 k j)) (fun j => b1 (ix2 (0 : Fin 1) j))
      (fun k j => w2 (ix2 k j)) (fun j => b2 (ix2 (0 : Fin 1) j)) (fun j => w3 (ix2 (0 : Fin 1) j))
      (fun j k => w2t (ix2 j k)) k := by
  unfold g1 adj1
  rw [mulf_apply, s1_apply, sq_apply, posBit_mul, shapeCast_self]
  refine congrArg (wherePos _) (Finset.sum_congr rfl fun j _ => ?_)
  rw [truncf_apply, mulf_apply, s2_apply, broadcastTo_1b_ab_apply, shapeCast_self, posBit_mul]
  rfl

/-- THE STORED BLOCK at `(p, d)`: the residual of sample `p` of the block. -/
theorem stored_apply (p : Fin 4096) (d : Fin 32) :
    k0_pay1 (k0_pay2 x w1 b1 w2 b2 w3 w2t) (k0_pay3 w1qt) (ix2 p d)
      = residual (row x p) (fun k j => w1 (ix2 k j)) (fun j => b1 (ix2 (0 : Fin 1) j))
          (fun k j => w2 (ix2 k j)) (fun j => b2 (ix2 (0 : Fin 1) j)) (fun j => w3 (ix2 (0 : Fin 1) j))
          (fun j k => w2t (ix2 j k)) (fun k d => w1qt (ix2 k d)) d := by
  rw [pay2_eq]
  unfold k0_pay1 k0_pay3 residual
  rw [subf_apply, broadcast_apply, nar_apply, shapeCast_self]
  refine congrArg₂ (· - ·) Ideal.ofBits_zero_f32 (Finset.sum_congr rfl fun k _ => ?_)
  rw [truncf_apply, g1_apply]

end Vectors

end Cert.Lagrangian.Body

end
-- ==== Proof.KernelBatch.lean ====
/-
  From blocks to the whole result array.

  The grid has 64 points; point `t` is handed rows `4096·t … 4096·t + 4095` of the sample array and every weight
  array whole, and writes back rows `4096·t …` of the result. The weight arrays it is handed were prepared
  before the call: `W1` and `W2` with their float format changed (the identity on the extended reals), `W2`
  transposed, the first 32 rows of `W1` transposed, the two bias vectors and `W3` (a 64×1 column) laid out as
  1×64 rows. Read at an entry each of these is an entry of the argument it came from, so what point `t` writes at
  `(p, d)` is `G` of the arguments at `(4096·t + p, d)`; the 64 blocks tile the result, hence the result is `G`.
-/
import proofs.«107176_j52372831208004_1_alg».proof.Proof.Gen.KernelIdeal.Value
import proofs.«107176_j52372831208004_1_alg».proof.Proof.KernelRow
import Idealize.ShloMosaic.Lib.Pipeline.Value
import Idealize.ShloMosaic.Lib.ValueLayout
import Idealize.ShloMosaic.Lib.StableHlo.Run

set_option maxRecDepth 16384

noncomputable section

namespace Cert.Lagrangian.Batch

open Idealize.ShloMosaic Idealize.ShloMosaic.TcCoe Idealize.SL.Sem Idealize.ShloMosaic.ValueIdx
open Idealize.ShloMosaic.StableHlo
open Idealize.ShloMosaic.Pipeline (Dat)
open Cert.KernelIdeal Cert.KernelIdeal.Gen Cert.KernelIdeal.Value Cert.Lagrangian Cert.Lagrangian.Body

variable (m : (ℓ : Loc nD τ sig) → Buf (Elt Ideal) ℓ) (ρ : Dev nD → PrngReg)

/-! ## The prepared weight arrays, at an entry -/

theorem w1_at (c : Dev nD) (k j : Fin 64) :
    (V m c main_v0 : S64x64.Idx → EReal) (ix2 k j) = ((m ((c : Thread nD τ).loc main_arg1)) : S64x64.Idx → EReal) (ix2 k j) := by
  have e : (V m c main_v0 : S64x64.Idx → EReal) = truncf (F := Ideal) .bf16 ((m ((c : Thread nD τ).loc main_arg1)) : FVec Ideal S64x64 .f32) bitsLt_bf16_f32 := by
    dsimp only [Gen.V, Gen.hostOps0]; after_results
  rw [e]; rfl

theorem w2_at (c : Dev nD) (k j : Fin 64) :
    (V m c main_v1 : S64x64.Idx → EReal) (ix2 k j) = ((m ((c : Thread nD τ).loc main_arg3)) : S64x64.Idx → EReal) (ix2 k j) := by
  have e : (V m c main_v1 : S64x64.Idx → EReal) = truncf (F := Ideal) .bf16 ((m ((c : Thread nD τ).loc main_arg3)) : FVec Ideal S64x64 .f32) bitsLt_bf16_f32 := by
    dsimp only [Gen.V, Gen.hostOps0]; after_results
  rw [e]; rfl

/-- The transposed second weight matrix at `(j, k)` is `W2` at `(k, j)`. -/
theorem w2t_at (c : Dev nD) (j k : Fin 64) :
    (V m c main_v3 : S64x64.Idx → EReal) (ix2 j k) = ((m ((c : Thread nD τ).loc main_arg3)) : S64x64.Idx → EReal) (ix2 k j) := by
  have e : (V m c main_v3 : S64x64.Idx → EReal)
      = truncf (F := Ideal) .bf16 (transpose S64x64 [1, 0] ((m ((c : Thread nD τ).loc main_arg3)) : FVec Ideal S64x64 .f32) transposes_S64x64_S64x64_1_0) bitsLt_bf16_f32 := by
    dsimp only [Gen.V, Gen.hostOps0]; after_results
  rw [e, truncf_apply]
  exact transpose_ix2_apply _ _ j k

/-- The first 32 rows of `W1`, transposed, at `(k, d)` is `W1` at `(d, k)`. -/
theorem w1qt_at (c : Dev nD) (k : Fin 64) (d : Fin 32) :
    (V m c main_v6 : S64x32.Idx → EReal) (ix2 k d)
      = ((m ((c : Thread nD τ).loc main_arg1)) : S64x64.Idx → EReal) (ix2 (Fin.castLE (by decide : 32 ≤ 64) d) k) := by
  have e : (V m c main_v6 : S64x32.Idx → EReal)
      = truncf (F := Ideal) .bf16 (transpose S64x32 [1, 0]
          (extractStridedSlice S32x64 ![0, 0] ((m ((c : Thread nD τ).loc main_arg1)) : FVec Ideal S64x64 .f32) slices_S64x64_S32x64_0_0)
          transposes_S32x64_S64x32_1_0) bitsLt_bf16_f32 := by
    dsimp only [Gen.V, Gen.hostOps0]; after_results
  rw [e, truncf_apply, transpose_ix2_apply]
  exact extractStridedSlice_apply _ _ _ _ _ (fun a => match a with
    | ⟨0, _⟩ => by show d.val = 0 + d.val; omega
    | ⟨1, _⟩ => by show k.val = 0 + k.val; omega)

theorem b1_at (c : Dev nD) (j : Fin 64) :
    (V m c main_v7 : S1x64.Idx → EReal) (ix2 (0 : Fin 1) j) = ((m ((c : Thread nD τ).loc main_arg2)) : S64.Idx → EReal) (ix1 j) := by
  have e : (V m c main_v7 : S1x64.Idx → EReal) = shapeCast S1x64 ((m ((c : Thread nD τ).loc main_arg2)) : FVec Ideal S64 .f32) shapeCasts_S64_S1x64 := by
    dsimp only [Gen.V, Gen.hostOps0]; after_results; rfl
  rw [e]
  exact shapeCast_a_1a_apply _ _ _ _

theorem b2_at (c : Dev nD) (j : Fin 64) :
    (V m c main_v8 : S1x64.Idx → EReal) (ix2 (0 : Fin 1) j) = ((m ((c : Thread nD τ).loc main_arg4)) : S64.Idx → EReal) (ix1 j) := by
  have e : (V m c main_v8 : S1x64.Idx → EReal) = shapeCast S1x64 ((m ((c : Thread nD τ).loc main_arg4)) : FVec Ideal S64 .f32) shapeCasts_S64_S1x64 := by
    dsimp only [Gen.V, Gen.hostOps0]; after_results; rfl
  rw [e]
  exact shapeCast_a_1a_apply _ _ _ _

/-- The output weights, a 64×1 column laid out as a 1×64 row: entry `(0, j)` is the column's entry `(j, 0)`. -/
theorem w3_at (c : Dev nD) (j : Fin 64) :
    (V m c main_v9 : S1x64.Idx → EReal) (ix2 (0 : Fin 1) j) = ((m ((c : Thread nD τ).loc main_arg5)) : S64x1.Idx → EReal) (ix2 j (0 : Fin 1)) := by
  have e : (V m c main_v9 : S1x64.Idx → EReal) = shapeCast S1x64 ((m ((c : Thread nD τ).loc main_arg5)) : FVec Ideal S64x1 .f32) shapeCasts_S64x1_S1x64 := by
    dsimp only [Gen.V, Gen.hostOps0]; after_results; rfl
  rw [e]
  refine shapeCast_apply (s := S64x1) (t := S1x64) _ _ _ _ ?_
  show (S64x1.rowMajor (ix2 j (0 : Fin 1))).val = (S1x64.rowMajor (ix2 (0 : Fin 1) j)).val
  rw [Shape.rowMajor_val_two, Shape.rowMajor_val_two]
  show j.val * 1 + 0 = 0 * 64 + j.val
  omega

/-! ## The blocks a point is handed -/

/-- The printed index maps over the 64 points: the sample and result windows move one block of rows per point,
    every weight window stays on its one block. -/
theorem idx_facts : ∀ t : Fin cfg0.N,
    win0_0.index t (0 : Fin 2) = t.val ∧ win0_0.index t (1 : Fin 2) = 0
    ∧ win0_8.index t (0 : Fin 2) = t.val ∧ win0_8.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- Row `p` of point `t`'s block is row `4096·t + p` of the array. -/
def rowOf (t : Fin cfg0.N) (p : Fin 4096) : Fin 262144 :=
  ⟨t.val * 4096 + p.val, by have ht : t.val < 64 := lt_of_lt_of_eq t.isLt N_0; have := p.isLt; omega⟩

theorem x_blk (c : Dev nD) (t : Fin cfg0.N) (p : Fin 4096) (k : Fin 64) :
    (iblk m c 0 t : S4096x64.Idx → EReal) (ix2 p k) = ((m ((c : Thread nD τ).loc main_arg0)) : S262144x64.Idx → EReal) (ix2 (rowOf t p) k) := by
  obtain ⟨e0, e1, -⟩ := idx_facts t
  show (V m c main_arg0 : S262144x64.Idx → EReal) (((cfg0.win 0).blk t).view.emb (ix2 p k)) = _
  rw [V_main_arg0]
  refine congrArg ((m ((c : Thread nD τ).loc main_arg0)) : S262144x64.Idx → EReal) (funext fun a => Fin.ext ?_)
  match a with
  | ⟨0, _⟩ => show win0_0.index t (0 : Fin 2) * 4096 + 1 * p.val = t.val * 4096 + p.val; omega
  | ⟨1, _⟩ => show win0_0.index t (1 : Fin 2) * 64 + 1 * k.val = k.val; omega

/-! Every weight window is on its one block at every point, so the block read at an entry is the prepared array
    there, which is the argument's entry found above. -/

theorem w1_blk (c : Dev nD) (t : Fin cfg0.N) (k : Fin 64) (j : Fin 64) :
    (iblk m c 1 t : S64x64.Idx → EReal) (ix2 k j) = ((m ((c : Thread nD τ).loc main_arg1)) : S64x64.Idx → EReal) (ix2 k j) := by
  have f := idx_facts t
  show (V m c main_v0 : S64x64.Idx → EReal) (((cfg0.win 1).blk t).view.emb (ix2 k j)) = _
  rw [← w1_at m c k j]
  refine congrArg (V m c main_v0 : S64x64.Idx → EReal) (funext fun x => Fin.ext ?_)
  match x with
  | ⟨0, _⟩ => show win0_1.index t (0 : Fin 2) * 64 + 1 * k.val = k.val; omega
  | ⟨1, _⟩ => show win0_1.index t (1 : Fin 2) * 64 + 1 * j.val = j.val; omega

theorem w2_blk (c : Dev nD) (t : Fin cfg0.N) (k : Fin 64) (j : Fin 64) :
    (iblk m c 2 t : S64x64.Idx → EReal) (ix2 k j) = ((m ((c : Thread nD τ).loc main_arg3)) : S64x64.Idx → EReal) (ix2 k j) := by
  have f := idx_facts t
  show (V m c main_v1 : S64x64.Idx → EReal) (((cfg0.win 2).blk t).view.emb (ix2 k j)) = _
  rw [← w2_at m c k j]
  refine congrArg (V m c main_v1 : S64x64.Idx → EReal) (funext fun x => Fin.ext ?_)
  match x with
  | ⟨0, _⟩ => show win0_2.index t (0 : Fin 2) * 64 + 1 * k.val = k.val; omega
  | ⟨1, _⟩ => show win0_2.index t (1 : Fin 2) * 64 + 1 * j.val = j.val; omega

theorem w2t_blk (c : Dev nD) (t : Fin cfg0.N) (j : Fin 64) (k : Fin 64) :
    (iblk m c 3 t : S64x64.Idx → EReal) (ix2 j k) = ((m ((c : Thread nD τ).loc main_arg3)) : S64x64.Idx → EReal) (ix2 k j) := by
  have f := idx_facts t
  show (V m c main_v3 : S64x64.Idx → EReal) (((cfg0.win 3).blk t).view.emb (ix2 j k)) = _
  rw [← w2t_at m c j k]
  refine congrArg (V m c main_v3 : S64x64.Idx → EReal) (funext fun x => Fin.ext ?_)
  match x with
  | ⟨0, _⟩ => show win0_3.index t (0 : Fin 2) * 64 + 1 * j.val = j.val; omega
  | ⟨1, _⟩ => show win0_3.index t (1 : Fin 2) * 64 + 1 * k.val = k.val; omega

theorem w1qt_blk (c : Dev nD) (t : Fin cfg0.N) (k : Fin 64) (d : Fin 32) :
    (iblk m c 4 t : S64x32.Idx → EReal) (ix2 k d) = ((m ((c : Thread nD τ).loc main_arg1)) : S64x64.Idx → EReal) (ix2 (Fin.castLE (by decide : 32 ≤ 64) d) k) := by
  have f := idx_facts t
  show (V m c main_v6 : S64x32.Idx → EReal) (((cfg0.win 4).blk t).view.emb (ix2 k d)) = _
  rw [← w1qt_at m c k d]
  refine congrArg (V m c main_v6 : S64x32.Idx → EReal) (funext fun x => Fin.ext ?_)
  match x with
  | ⟨0, _⟩ => show win0_4.index t (0 : Fin 2) * 64 + 1 * k.val = k.val; omega
  | ⟨1, _⟩ => show win0_4.index t (1 : Fin 2) * 32 + 1 * d.val = d.val; omega

theorem b1_blk (c : Dev nD) (t : Fin cfg0.N) (j : Fin 64) :
    (iblk m c 5 t : S1x64.Idx → EReal) (ix2 (0 : Fin 1) j) = ((m ((c : Thread nD τ).loc main_arg2)) : S64.Idx → EReal) (ix1 j) := by
  have f := idx_facts t
  show (V m c main_v7 : S1x64.Idx → EReal) (((cfg0.win 5).blk t).view.emb (ix2 (0 : Fin 1) j)) = _
  rw [← b1_at m c j]
  refine congrArg (V m c main_v7 : S1x64.Idx → EReal) (funext fun x => Fin.ext ?_)
  match x with
  | ⟨0, _⟩ => show win0_5.index t (0 : Fin 2) * 1 + 1 * 0 = 0; omega
  | ⟨1, _⟩ => show win0_5.index t (1 : Fin 2) * 64 + 1 * j.val = j.val; omega

theorem b2_blk (c : Dev nD) (t : Fin cfg0.N) (j : Fin 64) :
    (iblk m c 6 t : S1x64.Idx → EReal) (ix2 (0 : Fin 1) j) = ((m ((c : Thread nD τ).loc main_arg4)) : S64.Idx → EReal) (ix1 j) := by
  have f := idx_facts t
  show (V m c main_v8 : S1x64.Idx → EReal) (((cfg0.win 6).blk t).view.emb (ix2 (0 : Fin 1) j)) = _
  rw [← b2_at m c j]
  refine congrArg (V m c main_v8 : S1x64.Idx → EReal) (funext fun x => Fin.ext ?_)
  match x with
  | ⟨0, _⟩ => show win0_6.index t (0 : Fin 2) * 1 + 1 * 0 = 0; omega
  | ⟨1, _⟩ => show win0_6.index t (1 : Fin 2) * 64 + 1 * j.val = j.val; omega

theorem w3_blk (c : Dev nD) (t : Fin cfg0.N) (j : Fin 64) :
    (iblk m c 7 t : S1x64.Idx → EReal) (ix2 (0 : Fin 1) j) = ((m ((c : Thread nD τ).loc main_arg5)) : S64x1.Idx → EReal) (ix2 j (0 : Fin 1)) := by
  have f := idx_facts t
  show (V m c main_v9 : S1x64.Idx → EReal) (((cfg0.win 7).blk t).view.emb (ix2 (0 : Fin 1) j)) = _
  rw [← w3_at m c j]
  refine congrArg (V m c main_v9 : S1x64.Idx → EReal) (funext fun x => Fin.ext ?_)
  match x with
  | ⟨0, _⟩ => show win0_7.index t (0 : Fin 2) * 1 + 1 * 0 = 0; omega
  | ⟨1, _⟩ => show win0_7.index t (1 : Fin 2) * 64 + 1 * j.val = j.val; omega

/-! ## What a point writes back, and the result array -/

/-- The residuals of all samples, as a function of the arguments as launched. -/
abbrev result (c : Dev nD) : S262144x32.Idx → EReal :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

theorem hz : (![0, 0] : Fin 2 → Nat) = fun _ => 0 := funext fun a => by fin_cases a <;> rfl

/-- WHAT POINT `t` WRITES BACK is block `t` of the residual array. -/
theorem flushed_eq (c : Dev nD) (t : Fin cfg0.N) :
    (dats m 0 c).flushed 8 t = ((cfg0.win 8).blk t).view.read (Elt Ideal) (result m c) := by
  rw [flushed8]
  unfold out0_8
  rw [View.canon_unit_zero hz]
  simp only [View.ld_unit_zero (S := S4096x64) hz, View.ld_unit_zero (S := S64x64) hz,
    View.ld_unit_zero (S := S1x64) hz, View.ld_unit_zero (S := S64x32) hz]
  have f := idx_facts t
  funext y
  obtain ⟨p, d, rfl⟩ : ∃ (p : Fin 4096) (d : Fin 32), y = ix2 p d := ⟨y 0, y 1, eq_ix2 y⟩
  have hemb : ((cfg0.win 8).blk t).view.emb (ix2 p d) = ix2 (rowOf t p) d := funext fun a => Fin.ext (by
    match a with
    | ⟨0, _⟩ => show win0_8.index t (0 : Fin 2) * 4096 + 1 * p.val = t.val * 4096 + p.val; omega
    | ⟨1, _⟩ => show win0_8.index t (1 : Fin 2) * 32 + 1 * d.val = d.val; omega)
  show k0_pay1 (k0_pay2 (iblk m c 0 t) (iblk m c 1 t) (iblk m c 5 t) (iblk m c 2 t) (iblk m c 6 t) (iblk m c 7 t) (iblk m c 3 t))
      (k0_pay3 (iblk m c 4 t)) (ix2 p d) = result m c (((cfg0.win 8).blk t).view.emb (ix2 p d))
  rw [hemb]
  refine (stored_apply (iblk m c 0 t) (iblk m c 1 t) (iblk m c 5 t) (iblk m c 2 t) (iblk m c 6 t) (iblk m c 7 t)
    (iblk m c 3 t) (iblk m c 4 t) p d).trans ?_
  have hx : row (iblk m c 0 t) p = fun k => ((m ((c : Thread nD τ).loc main_arg0)) : S262144x64.Idx → EReal) (ix2 (rowOf t p) k) :=
    funext fun k => x_blk m c t p k
  have h1 : (fun (k j : Fin 64) => (iblk m c 1 t : S64x64.Idx → EReal) (ix2 k j)) = fun k j => ((m ((c : Thread nD τ).loc main_arg1)) : S64x64.Idx → EReal) (ix2 k j) :=
    funext fun k => funext fun j => w1_blk m c t k j
  have h5 : (fun (j : Fin 64) => (iblk m c 5 t : S1x64.Idx → EReal) (ix2 (0 : Fin 1) j)) = fun j => ((m ((c : Thread nD τ).loc main_arg2)) : S64.Idx → EReal) (ix1 j) :=
    funext fun j => b1_blk m c t j
  have h2 : (fun (k j : Fin 64) => (iblk m c 2 t : S64x64.Idx → EReal) (ix2 k j)) = fun k j => ((m ((c : Thread nD τ).loc main_arg3)) : S64x64.Idx → EReal) (ix2 k j) :=
    funext fun k => funext fun j => w2_blk m c t k j
  have h6 : (fun (j : Fin 64) => (iblk m c 6 t : S1x64.Idx → EReal) (ix2 (0 : Fin 1) j)) = fun j => ((m ((c : Thread nD τ).loc main_arg4)) : S64.Idx → EReal) (ix1 j) :=
    funext fun j => b2_blk m c t j
  have h7 : (fun (j : Fin 64) => (iblk m c 7 t : S1x64.Idx → EReal) (ix2 (0 : Fin 1) j)) = fun j => ((m ((c : Thread nD τ).loc main_arg5)) : S64x1.Idx → EReal) (ix2 j (0 : Fin 1)) :=
    funext fun j => w3_blk m c t j
  have h3 : (fun (j k : Fin 64) => (iblk m c 3 t : S64x64.Idx → EReal) (ix2 j k)) = fun j k => ((m ((c : Thread nD τ).loc main_arg3)) : S64x64.Idx → EReal) (ix2 k j) :=
    funext fun j => funext fun k => w2t_blk m c t j k
  have h4 : (fun (k : Fin 64) (d : Fin 32) => (iblk m c 4 t : S64x32.Idx → EReal) (ix2 k d))
      = fun k d => ((m ((c : Thread nD τ).loc main_arg1)) : S64x64.Idx → EReal) (ix2 (Fin.castLE (by decide : 32 ≤ 64) d) k) :=
    funext fun k => funext fun d => w1qt_blk m c t k d
  exact congrArg (fun r : Fin 32 → EReal => r d)
    (show residual (row (iblk m c 0 t) p) (fun k j => (iblk m c 1 t : S64x64.Idx → EReal) (ix2 k j))
        (fun j => (iblk m c 5 t : S1x64.Idx → EReal) (ix2 (0 : Fin 1) j)) (fun k j => (iblk m c 2 t : S64x64.Idx → EReal) (ix2 k j))
        (fun j => (iblk m c 6 t : S1x64.Idx → EReal) (ix2 (0 : Fin 1) j)) (fun j => (iblk m c 7 t : S1x64.Idx → EReal) (ix2 (0 : Fin 1) j))
        (fun j k => (iblk m c 3 t : S64x64.Idx → EReal) (ix2 j k)) (fun k d => (iblk m c 4 t : S64x32.Idx → EReal) (ix2 k d))
      = residual (fun k => ((m ((c : Thread nD τ).loc main_arg0)) : S262144x64.Idx → EReal) (ix2 (rowOf t p) k)) (fun k j => ((m ((c : Thread nD τ).loc main_arg1)) : S64x64.Idx → EReal) (ix2 k j))
        (fun j => ((m ((c : Thread nD τ).loc main_arg2)) : S64.Idx → EReal) (ix1 j)) (fun k j => ((m ((c : Thread nD τ).loc main_arg3)) : S64x64.Idx → EReal) (ix2 k j))
        (fun j => ((m ((c : Thread nD τ).loc main_arg4)) : S64.Idx → EReal) (ix1 j)) (fun j => ((m ((c : Thread nD τ).loc main_arg5)) : S64x1.Idx → EReal) (ix2 j (0 : Fin 1)))
        (fun j k => ((m ((c : Thread nD τ).loc main_arg3)) : S64x64.Idx → EReal) (ix2 k j))
        (fun k d => ((m ((c : Thread nD τ).loc main_arg1)) : S64x64.Idx → EReal) (ix2 (Fin.castLE (by decide : 32 ≤ 64) d) k))
      by rw [hx, h1, h5, h2, h6, h7, h3, h4])

/-- An index of the result is in point `t`'s block iff each coordinate is in the block's range on its axis. -/
theorem mem_blk (t : Fin cfg0.N) (i : S262144x32.Idx) :
    i ∈ ((cfg0.win 8).blk t).view.set ↔ ∀ a : Fin 2, win0_8.index t a * S4096x32.size a ≤ (i a).val
      ∧ (i a).val < win0_8.index t a * S4096x32.size a + S4096x32.size a := by
  show i ∈ ((View.whole main_v10).slice (win0_8.rect t)).set ↔ _
  rw [View.set_slice_whole, Rect.mem_set_unit]
  exact Iff.rfl

/-- THE RESULT ARRAY after the run: row `r` lies in the block of point `r / 4096`, so the 64 blocks cover it. -/
theorem final (c : Dev nD) : (dats m 0 c).arrAt 8 cfg0.N = result m c :=
  (dats m 0 c).arrAt_eq_of_cover 8 (result m c) (fun t _ => flushed_eq m c t) fun i => by
    have hi0 : (i 0).val < 262144 := (i 0).isLt
    have hi1 : (i 1).val < 32 := (i 1).isLt
    have hN : cfg0.N = 64 := N_0
    have ht : (i 0).val / 4096 < cfg0.N := by rw [hN]; omega
    have f := idx_facts ⟨(i 0).val / 4096, ht⟩
    refine ⟨⟨(i 0).val / 4096, ht⟩, flush0_8 _, ?_⟩
    rw [mem_blk]
    intro a
    match a with
    | ⟨0, _⟩ =>
      show win0_8.index ⟨(i 0).val / 4096, ht⟩ (0 : Fin 2) * 4096 ≤ (i 0).val
        ∧ (i 0).val < win0_8.index ⟨(i 0).val / 4096, ht⟩ (0 : Fin 2) * 4096 + 4096
      rw [f.2.2.1]
      show (i 0).val / 4096 * 4096 ≤ (i 0).val ∧ (i 0).val < (i 0).val / 4096 * 4096 + 4096
      omega
    | ⟨1, _⟩ =>
      show win0_8.index ⟨(i 0).val / 4096, ht⟩ (1 : Fin 2) * 32 ≤ (i 1).val
        ∧ (i 1).val < win0_8.index ⟨(i 0).val / 4096, ht⟩ (1 : Fin 2) * 32 + 32
      rw [f.2.2.2.1]
      omega

/-! ## The run, read -/

/-- Every weakly fair execution of the kernel's program terminates with the result array at the residuals and the
    arguments as launched. -/
theorem run : θ_run defs (onTc (τ := τ) (main (F := Ideal))) ⟨m, fun _ => 0, ρ⟩ fun r => ∀ c : Dev nD,
      r.2.mem ((c : Thread nD τ).loc main_v10) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.Lagrangian.Batch

end
-- ==== Proof.ReferenceRow.lean ====
/-
  The reference, read at one entry, is the same row function.

  The reference differentiates the network by the chain rule twice over. The second-order term it asks for is the
  derivative, with respect to `q`, of a gradient that depends on `q` only through the comparisons `z > 0`; it was
  lowered to the constant zero, so the result is `0 − ∂L/∂q` with `∂L/∂q` the first 32 columns of one backward pass.
  That pass applies each ReLU derivative as a choice between the incoming adjoint and zero, takes `relu` as
  `max z 0`, obtains the adjoint of the output layer as a [B,1] array of ones times `W3ᵀ` (a sum over one term), and
  contracts with `W2` and `W1` over their SECOND axes instead of transposing them. The sample array is first cut
  into its two halves and joined again, which is the identity.

  The stages below are the generated ones (`val_main_vN`), each read at `(r, j)`.
-/
import proofs.«107176_j52372831208004_1_alg».proof.Proof.Gen.ReferenceIdeal.Read
import proofs.«107176_j52372831208004_1_alg».proof.Proof.RowResidual

noncomputable section

namespace Cert.Lagrangian.Ref

open Idealize.ShloMosaic Idealize.ShloMosaic.ValueIdx
open Cert.ReferenceIdeal Cert.ReferenceIdeal.Read Cert.Lagrangian

/-! ## The halves of the sample array, joined again -/

/-- Cutting every sample into `q` and `q̇` and joining the halves gives the samples back. -/
theorem halves_joined (x0 : (⟨S262144x64, .f32⟩ : BufTy).Contents (Elt Ideal)) : val_main_v2 (F := Ideal) x0 = x0 := by
  funext i
  unfold val_main_v2
  by_cases h : (i 1).val < 32
  · rw [concatenate_pair_apply_left (t := S262144x64) (s₁ := S262144x32) (s₂ := S262144x32) (1 : Fin S262144x64.rank) _ _ _ i rfl
      (ix2 (⟨(i 0).val, (i 0).isLt⟩ : Fin 262144) (⟨(i 1).val, h⟩ : Fin 32))
      (fun b => match b with | ⟨0, _⟩ => rfl | ⟨1, _⟩ => rfl), val_main_v0_apply]
    exact congrArg x0 (funext fun a => match a with | ⟨0, _⟩ => rfl | ⟨1, _⟩ => rfl)
  · have h' : 32 ≤ (i 1).val := not_lt.mp h
    have h2 : (i 1).val < 64 := (i 1).isLt
    rw [concatenate_pair_apply_right (t := S262144x64) (s₁ := S262144x32) (s₂ := S262144x32) (1 : Fin S262144x64.rank) _ _ _ i rfl rfl
      (ix2 (⟨(i 0).val, (i 0).isLt⟩ : Fin 262144) (⟨(i 1).val - 32, by omega⟩ : Fin 32))
      (fun b hb => match b, hb with
        | ⟨0, _⟩, _ => rfl
        | ⟨1, _⟩, hb => absurd rfl hb)
      (by show (i 1).val - 32 + 32 = (i 1).val; omega), val_main_v1_apply]
    exact congrArg x0 (funext fun a => Fin.ext (match a with
      | ⟨0, _⟩ => rfl
      | ⟨1, _⟩ => by show 32 + ((i 1).val - 32) = (i 1).val; omega))

/-! ## The operand indices of the four contractions, by coordinates -/

theorem lidx4 (r : Fin 262144) (j k : Fin 64) : lidx_main_v4 (ix2 r j) k = ix2 r k :=
  funext fun a => match a with | ⟨0, _⟩ => rfl | ⟨1, _⟩ => rfl
theorem ridx4 (r : Fin 262144) (j k : Fin 64) : ridx_main_v4 (ix2 r j) k = ix2 k j :=
  funext fun a => match a with | ⟨0, _⟩ => rfl | ⟨1, _⟩ => rfl
theorem lidx12 (r : Fin 262144) (j k : Fin 64) : lidx_main_v12 (ix2 r j) k = ix2 r k :=
  funext fun a => match a with | ⟨0, _⟩ => rfl | ⟨1, _⟩ => rfl
theorem ridx12 (r : Fin 262144) (j k : Fin 64) : ridx_main_v12 (ix2 r j) k = ix2 k j :=
  funext fun a => match a with | ⟨0, _⟩ => rfl | ⟨1, _⟩ => rfl
theorem lidx29 (r : Fin 262144) (k j : Fin 64) : lidx_main_v29 (ix2 r k) j = ix2 r j :=
  funext fun a => match a with | ⟨0, _⟩ => rfl | ⟨1, _⟩ => rfl
theorem ridx29 (r : Fin 262144) (k j : Fin 64) : ridx_main_v29 (ix2 r k) j = ix2 k j :=
  funext fun a => match a with | ⟨0, _⟩ => rfl | ⟨1, _⟩ => rfl
theorem lidx32 (r : Fin 262144) (d : Fin 32) (k : Fin 64) : lidx_main_v32 (idx_main_v33 (ix2 r d)) k = ix2 r k :=
  funext fun a => match a with | ⟨0, _⟩ => rfl | ⟨1, _⟩ => rfl
theorem ridx32 (r : Fin 262144) (d : Fin 32) (k : Fin 64) :
    ridx_main_v32 (idx_main_v33 (ix2 r d)) k = ix2 (Fin.castLE (by decide : 32 ≤ 64) d) k :=
  funext fun a => match a with | ⟨0, _⟩ => rfl | ⟨1, _⟩ => rfl
theorem bias_idx (r : Fin 262144) (j : Fin 64) : idx_main_v5 (idx_main_v6 (ix2 r j)) = ix1 j :=
  funext fun a => match a with | ⟨0, _⟩ => rfl
theorem bias_idx' (r : Fin 262144) (j : Fin 64) : idx_main_v13 (idx_main_v14 (ix2 r j)) = ix1 j :=
  funext fun a => match a with | ⟨0, _⟩ => rfl
theorem ridx26 (r : Fin 262144) (j : Fin 64) : ridx_main_v26 (ix2 r j) (0 : Fin 1) = ix2 j (0 : Fin 1) :=
  funext fun a => match a with | ⟨0, _⟩ => rfl | ⟨1, _⟩ => rfl

/-- The pattern of the float one. -/
theorem ofBits_one : Ideal.ofBits .f32 0x3F800000#32 = 1 := by
  simp [Ideal.ofBits, Ideal.ieee, -EReal.coe_mul]; norm_num

/-! ## The stages at an entry -/

section Stages

variable (x0 : (⟨S262144x64, .f32⟩ : BufTy).Contents (Elt Ideal)) (x1 : (⟨S64x64, .f32⟩ : BufTy).Contents (Elt Ideal)) (x2 : (⟨S64, .f32⟩ : BufTy).Contents (Elt Ideal))
  (x3 : (⟨S64x64, .f32⟩ : BufTy).Contents (Elt Ideal)) (x4 : (⟨S64, .f32⟩ : BufTy).Contents (Elt Ideal)) (x5 : (⟨S64x1, .f32⟩ : BufTy).Contents (Elt Ideal))

/-- Sample `r`. -/
abbrev sample (r : Fin 262144) : Fin 64 → EReal := fun k => x0 (ix2 r k)

theorem layer1_at (r : Fin 262144) (j : Fin 64) :
    val_main_v7 (F := Ideal) x0 x1 x2 (ix2 r j)
      = layer1 (sample x0 r) (fun k j => x1 (ix2 k j)) (fun j => x2 (ix1 j)) j := by
  rw [val_main_v7_apply, val_main_v4_apply, val_main_v6_apply, val_main_v5_apply, halves_joined, bias_idx]
  unfold layer1
  refine congrArg (· + x2 (ix1 j)) (Finset.sum_congr rfl fun k _ => ?_)
  rw [lidx4, ridx4]

theorem act1_at (r : Fin 262144) (j : Fin 64) :
    val_main_v8 (F := Ideal) x0 x1 x2 (ix2 r j)
      = act1 (sample x0 r) (fun k j => x1 (ix2 k j)) (fun j => x2 (ix1 j)) j := by
  rw [val_main_v8_apply, val_main_call0_v0_apply, val_main_call0_cst_apply, layer1_at]
  show max _ (Ideal.ofBits .f32 0x00000000#32) = _
  rw [Ideal.ofBits_zero_f32]
  exact max_zero_eq_wherePos _

theorem layer2_at (r : Fin 262144) (j : Fin 64) :
    val_main_v15 (F := Ideal) x0 x1 x2 x3 x4 (ix2 r j)
      = layer2 (sample x0 r) (fun k j => x1 (ix2 k j)) (fun j => x2 (ix1 j)) (fun k j => x3 (ix2 k j)) (fun j => x4 (ix1 j)) j := by
  rw [val_main_v15_apply, val_main_v12_apply, val_main_v14_apply, val_main_v13_apply, bias_idx']
  unfold layer2
  refine congrArg (· + x4 (ix1 j)) (Finset.sum_congr rfl fun k _ => ?_)
  rw [lidx12, ridx12, act1_at]

theorem adj2_at (r : Fin 262144) (j : Fin 64) :
    val_main_v28 (F := Ideal) x0 x1 x2 x3 x4 x5 (ix2 r j)
      = adj2 (sample x0 r) (fun k j => x1 (ix2 k j)) (fun j => x2 (ix1 j)) (fun k j => x3 (ix2 k j)) (fun j => x4 (ix1 j))
          (fun j => x5 (ix2 j (0 : Fin 1))) j := by
  rw [val_main_v28_apply, val_main_v18_apply, val_main_v17_apply, val_main_cst_2_apply, val_main_v27_apply,
    val_main_cst_6_apply, val_main_v26_apply, layer2_at, Fin.sum_univ_one, val_main_v25_apply, val_main_cst_5_apply, ridx26]
  unfold adj2
  show Scalar.select _ (Ideal.ofBits .f32 0x3F800000#32 * _) _ = _
  rw [ofBits_one, one_mul]
  exact select_cmpf_ogt_zero _ _

theorem adj1_at (r : Fin 262144) (k : Fin 64) :
    val_main_v31 (F := Ideal) x0 x1 x2 x3 x4 x5 (ix2 r k)
      = adj1 (sample x0 r) (fun k j => x1 (ix2 k j)) (fun j => x2 (ix1 j)) (fun k j => x3 (ix2 k j)) (fun j => x4 (ix1 j))
          (fun j => x5 (ix2 j (0 : Fin 1))) (fun j k => x3 (ix2 k j)) k := by
  rw [val_main_v31_apply, val_main_v10_apply, val_main_v9_apply, val_main_cst_0_apply, val_main_v30_apply,
    val_main_cst_7_apply, val_main_v29_apply, layer1_at]
  unfold adj1
  refine (select_cmpf_ogt_zero _ _).trans (congrArg (wherePos _) (Finset.sum_congr rfl fun j _ => ?_))
  rw [lidx29, ridx29, adj2_at]

/-- THE RESULT at `(r, d)`: the residual of sample `r`. -/
theorem result_at (r : Fin 262144) (d : Fin 32) :
    val_main_v77 (F := Ideal) x0 x1 x2 x3 x4 x5 (ix2 r d)
      = residual (sample x0 r) (fun k j => x1 (ix2 k j)) (fun j => x2 (ix1 j)) (fun k j => x3 (ix2 k j)) (fun j => x4 (ix1 j))
          (fun j => x5 (ix2 j (0 : Fin 1))) (fun j k => x3 (ix2 k j))
          (fun k d => x1 (ix2 (Fin.castLE (by decide : 32 ≤ 64) d) k)) d := by
  rw [val_main_v77_apply, val_main_v76_apply, val_main_cst_23_apply, val_main_v33_apply, val_main_v32_apply]
  unfold residual
  refine congrArg₂ (· - ·) Ideal.ofBits_zero_f32 (Finset.sum_congr rfl fun k _ => ?_)
  rw [lidx32, ridx32, adj1_at]

/-- The reference's result array is `G` of its arguments. -/
theorem result_eq_G : val_main_v77 (F := Ideal) x0 x1 x2 x3 x4 x5 = G x0 x1 x2 x3 x4 x5 := by
  funext i
  obtain ⟨r, d, rfl⟩ : ∃ (r : Fin 262144) (d : Fin 32), i = ix2 r d := ⟨i 0, i 1, eq_ix2 i⟩
  rw [result_at]
  rfl

end Stages

end Cert.Lagrangian.Ref

end
-- ==== Proof.lean ====
/-
  Kernel and reference compute the same Euler–Lagrange residual.

  Both programs take 262144 samples `x = [q; q̇]` of 64 numbers and the weights of a three-layer ReLU network
  `L`, and return, per sample, `d/dt ∂L/∂q̇ − ∂L/∂q` in 32 numbers. `L` is piecewise linear, so the first term is the
  constant zero in both (the kernel's author dropped it by hand, the reference's double differentiation was lowered
  to a zero constant), and what is left is one backward pass: `0 − ∂L/∂q`.

  The two backward passes differ in spelling only. The kernel applies a ReLU derivative as a product with the
  float `[z > 0]` and the ReLU itself as `z·[z > 0]`; the reference chooses between the adjoint and zero and takes
  `max z 0`. On the extended reals `1·t = t` and `0·t = 0` for every `t`, infinite ones too, so both are the
  function `wherePos` (Proof/RowResidual.lean) and the equality needs no finiteness of the inputs: the
  precondition is never opened. The kernel multiplies by transposed copies of `W2` and of the first 32 rows of `W1`
  made before the call; the reference contracts over the second axis of the originals. The kernel works block by
  block on 4096 samples at a time, the reference on all of them at once; sums on the extended reals do not depend
  on the order of their terms.

  Proof/RowResidual.lean states one sample's residual; Proof/KernelRow.lean reads the kernel's stored block at
  an entry as that function, Proof/KernelBatch.lean assembles the 64 blocks into the result array;
  Proof/ReferenceRow.lean reads the reference's result at an entry as the same function. The three frames are the
  generated ones (the reference's is its generated run with the result dropped), and the kernel's idealization
  rewrote nothing.
-/
import proofs.«107176_j52372831208004_1_alg».proof.Defs
import proofs.«107176_j52372831208004_1_alg».proof.Proof.Gen.Kernel
import proofs.«107176_j52372831208004_1_alg».proof.Proof.Gen.Kernel.Skeleton
import proofs.«107176_j52372831208004_1_alg».proof.Proof.Gen.Kernel.Launch
import proofs.«107176_j52372831208004_1_alg».proof.Proof.Gen.Kernel.Points
import proofs.«107176_j52372831208004_1_alg».proof.Proof.Gen.Kernel.Frame
import proofs.«107176_j52372831208004_1_alg».proof.Proof.Gen.KernelIdeal
import proofs.«107176_j52372831208004_1_alg».proof.Proof.Gen.KernelIdeal.Skeleton
import proofs.«107176_j52372831208004_1_alg».proof.Proof.Gen.KernelIdeal.Launch
import proofs.«107176_j52372831208004_1_alg».proof.Proof.Gen.KernelIdeal.Points
import proofs.«107176_j52372831208004_1_alg».proof.Proof.Gen.KernelIdeal.Frame
import proofs.«107176_j52372831208004_1_alg».proof.Proof.Gen.ReferenceIdeal
import proofs.«107176_j52372831208004_1_alg».proof.Proof.Gen.Pre_finite_inputs
import proofs.«107176_j52372831208004_1_alg».proof.Proof.Gen.KernelIdeal.Value
import proofs.«107176_j52372831208004_1_alg».proof.Proof.Gen.ReferenceIdeal.Run
import proofs.«107176_j52372831208004_1_alg».proof.Proof.Gen.ReferenceIdeal.Read
import proofs.«107176_j52372831208004_1_alg».proof.Proof.KernelBatch
import proofs.«107176_j52372831208004_1_alg».proof.Proof.ReferenceRow
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- And the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories that agree on the seven arguments both programs end with the residual array `G` of them. -/
theorem algebraic : Cert.algebraic_KernelIdeal_ReferenceIdeal := by
  intro m ρ m' ρ' _ hagree
  refine ⟨fun c => Cert.Lagrangian.Batch.result m c, Cert.Lagrangian.Batch.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v77_eq, Cert.Lagrangian.Ref.result_eq_G,
    (hagree c).1, (hagree c).2.1, (hagree c).2.2.1, (hagree c).2.2.2.1, (hagree c).2.2.2.2.1, (hagree c).2.2.2.2.2.1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
